-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S64x16x512 : Shape := ⟨3, ![64, 16, 512]⟩
abbrev S262144 : Shape := ⟨1, ![262144]⟩
abbrev S256x512 : Shape := ⟨2, ![256, 512]⟩
abbrev S256 : Shape := ⟨1, ![256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S64x16x512 : S_.BroadcastsInDim S64x16x512 (![] : Fin 0 → Fin S64x16x512.rank)
  reducesTo_S64x16x512_S_d0_1_2 : S64x16x512.ReducesTo [0, 1, 2] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S262144 : S_.BroadcastsInDim S262144 (![] : Fin 0 → Fin S262144.rank)
  reducesTo_S262144_S_d0 : S262144.ReducesTo [0] S_

variable [Facts]

def fn_part1 {F : FTy → Type} [FloatOps F] (main_arg2 : IVec S262144 32) (main_arg5 : FVec F S256x512 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x512 .f32 := Host.absf main_arg5
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_c_10 : IVec S_ 32 := constantI S_ 32 0#32
  let main_v29 : IVec S262144 32 := broadcastInDim S262144 ![] bcast_S_S262144 main_c_10
  let main_v30 : IVec S262144 1 := cmpi .sge main_arg2 main_v29
  let main_c_11 : IVec S_ 1 := constantI S_ 1 1#1
  let main_v31 : IVec S_ 1 := (fun x v => Host.reduce IntOp.andi x v reducesTo_S262144_S_d0 h_S_) main_v30 main_c_11
  let main_v32 : IVec S_ 1 := andi main_v28 main_v31
  main_v32

def fn {F : FTy → Type} [FloatOps F] (main_arg0 : FVec F S262144x256 .f32) (main_arg1 : FVec F S64x16x512 .f32) (main_arg2 : IVec S262144 32) (main_arg3 : FVec F S256x512 .f32) (main_arg4 : FVec F S256 .f32) (main_arg5 : FVec F S256x512 .f32) (main_arg6 : FVec F S256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S64x16x512 .f32 := Host.absf main_arg1
  let main_cst_0 : FVec F S_ .f32 := constant S_ .f32 0x7F800000#32
  let main_v5 : FVec F S64x16x512 .f32 := broadcastInDim S64x16x512 ![] bcast_S_S64x16x512 main_cst_0
  let main_v6 : IVec S64x16x512 1 := cmpf .olt main_v4 main_v5
  let main_c_1 : IVec S_ 1 := constantI S_ 1 1#1
  let main_v7 : IVec S_ 1 := (fun x v => Host.reduce IntOp.andi x v reducesTo_S64x16x512_S_d0_1_2 h_S_) main_v6 main_c_1
  let main_v8 : IVec S_ 1 := andi main_v3 main_v7
  let main_v9 : FVec F S256x512 .f32 := Host.absf main_arg3
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_v13 main_v16
-- ==== Kernel.lean ====
abbrev S262144x256 : Shape := ⟨2, ![262144, 256]⟩
abbrev S64x16x512 : Shape := ⟨3, ![64, 16, 512]⟩
abbrev S262144 : Shape := ⟨1, ![262144]⟩
abbrev S256x512 : Shape := ⟨2, ![256, 512]⟩
abbrev S256 : Shape := ⟨1, ![256]⟩
abbrev S_ : Shape := ⟨0, ![]⟩
abbrev S64x512 : Shape := ⟨2, ![64, 512]⟩
abbrev S512x256 : Shape := ⟨2, ![512, 256]⟩
abbrev S64x256 : Shape := ⟨2, ![64, 256]⟩
abbrev S1x256 : Shape := ⟨2, ![1, 256]⟩
abbrev S256x256 : Shape := ⟨2, ![256, 256]⟩
abbrev S1x262144 : Shape := ⟨2, ![1, 262144]⟩
abbrev S4096x256 : Shape := ⟨2, ![4096, 256]⟩
abbrev S1x4096 : Shape := ⟨2, ![1, 4096]⟩
abbrev S4096 : Shape := ⟨1, ![4096]⟩
abbrev S4096x64 : Shape := ⟨2, ![4096, 64]⟩
abbrev S4096x1 : Shape := ⟨2, ![4096, 1]⟩

abbrev nBuf : Space → Nat
  | .hbm => 35
  | .vmem => 9
  | .smem => 0
  | _ => 0

abbrev bufTy : (tb : Table) → Fin (tcTables nBuf tb) → BufTy
  | .hbm, ⟨0, _⟩ => ⟨S262144x256, .f32⟩
  | .hbm, ⟨1, _⟩ => ⟨S64x16x512, .f32⟩
  | .hbm, ⟨2, _⟩ => ⟨S262144, .i32⟩
  | .hbm, ⟨3, _⟩ => ⟨S256x512, .f32⟩
  | .hbm, ⟨4, _⟩ => ⟨S256, .f32⟩
  | .hbm, ⟨5, _⟩ => ⟨S256x512, .f32⟩
  | .hbm, ⟨6, _⟩ => ⟨S256, .f32⟩
  | .hbm, ⟨7, _⟩ => ⟨S_, .f32⟩
  | .hbm, ⟨8, _⟩ => ⟨S64x512, .f32⟩
  | .hbm, ⟨9, _⟩ => ⟨S_, .f32⟩
  | .hbm, ⟨10, _⟩ => ⟨S64x512, .f32⟩
  | .hbm, ⟨11, _⟩ => ⟨S64x512, .f32⟩
  | .hbm, ⟨12, _⟩ => ⟨S512x256, .f32⟩
  | .hbm, ⟨13, _⟩ => ⟨S64x256, .f32⟩
  | .hbm, ⟨14, _⟩ => ⟨S1x256, .f32⟩
  | .hbm, ⟨15, _⟩ => ⟨S64x256, .f32⟩
  | .hbm, ⟨16, _⟩ => ⟨S64x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S64x256, .f32⟩
  | .hbm, ⟨22, _⟩ => ⟨S64x256, .bf16⟩
  | .hbm, ⟨23, _⟩ => ⟨S256x256, .bf16⟩
  | .hbm, ⟨24, _⟩ => ⟨S1x256, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S262144, .i32⟩
  | .hbm, ⟨29, _⟩ => ⟨S262144, .i32⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S1x262144, .i32⟩
  | .hbm, ⟨34, _⟩ => ⟨S262144x256, .f32⟩
  | .local _ .vmem, ⟨0, _⟩ => ⟨S4096x256, .f32⟩
  | .local _ .vmem, ⟨1, _⟩ => ⟨S4096x256, .f32⟩
  | .local _ .vmem, ⟨2, _⟩ => ⟨S1x4096, .i32⟩
  | .local _ .vmem, ⟨3, _⟩ => ⟨S1x4096, .i32⟩
  | .local _ .vmem, ⟨4, _⟩ => ⟨S64x256, .bf16⟩
  | .local _ .vmem, ⟨5, _⟩ => ⟨S256x256, .bf16⟩
  | .local _ .vmem, ⟨6, _⟩ => ⟨S1x256, .f32⟩
  | .local _ .vmem, ⟨7, _⟩ => ⟨S4096x256, .f32⟩
  | .local _ .vmem, ⟨8, _⟩ => ⟨S4096x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_c_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S64x16x512_S64x512_d1 : S64x16x512.ReducesTo [1] S64x512
  h_S_ : 0 < S_.numel
  bcast_S_S64x512 : S_.BroadcastsInDim S64x512 (![] : Fin 0 → Fin S64x512.rank)
  transposes_S256x512_S512x256_1_0 : S256x512.Transposes [1, 0] S512x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  slices_S256x512_S256x256_0_0 : S256x512.Slices ![0, 0] S256x256
  transposes_S256x256_S256x256_1_0 : S256x256.Transposes [1, 0] S256x256
  slices_S256x512_S256x256_0_256 : S256x512.Slices ![0, 256] S256x256
  bitsLt_bf16_f32 : FTy.bits .bf16 < FTy.bits .f32
  shapeCasts_S256_S1x256 : S256.ShapeCasts S1x256
  bcast_S_S262144 : S_.BroadcastsInDim S262144 (![] : Fin 0 → Fin S262144.rank)
  shapeCasts_S262144_S1x262144 : S262144.ShapeCasts S1x262144
  inb_S4096x256_S4096x256_0_0 : ∀ a, (![0, 0] : Fin 2 → Nat) a + S4096x256.size a ≤ S4096x256.size a
  h_S4096x256 : 0 < S4096x256.numel
  inb_S1x4096_S1x4096_0_0 : ∀ a, (![0, 0] : Fin 2 → Nat) a + S1x4096.size a ≤ S1x4096.size a
  h_S1x4096 : 0 < S1x4096.numel
  shapeCasts_S1x4096_S4096 : S1x4096.ShapeCasts S4096
  iota_S4096x64_d1_w32 : S4096x64.Iotas .tc 32 [1]
  shapeCasts_S4096_S4096x1 : S4096.ShapeCasts S4096x1
  broadcasts_S4096x1_S4096x64 : S4096x1.Broadcasts S4096x64
  natLt_1_32 : 1 < 32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  dot_S64x512_S512x256_S64x256_1_0_0_1_n_n_wf : DotDims.WF S64x512 S512x256 S64x256 [1] [0] [0] [1] [] []
  dot_S64x256_S256x256_S64x256_1_0_0_1_n_n_wf : DotDims.WF S64x256 S256x256 S64x256 [1] [0] [0] [1] [] []
  dot_S4096x64_S64x256_S4096x256_1_0_0_1_n_n_wf : DotDims.WF S4096x64 S64x256 S4096x256 [1] [0] [0] [1] [] []
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x262144.size a
  hwx0_1 : ∀ i : grid0.Coords, EltTy.bits .i32 = 32 ∨ (Rect.block (s := S1x262144) S1x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .bf16 = 32 ∨ (Rect.block (s := S64x256) S64x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S262144x256.size a
  hwx0_5 : ∀ i : grid0.Coords, EltTy.bits .f32 = 32 ∨ (Rect.block (s := S262144x256) S4096x256.size (cc0_transform_5 i) (hinb0_5 i)).WholeWords (EltTy.packing .f32)

variable [Facts₀]

def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x256 : Shape := ⟨2, ![262144, 256]⟩
abbrev S64x16x512 : Shape := ⟨3, ![64, 16, 512]⟩
abbrev S262144 : Shape := ⟨1, ![262144]⟩
abbrev S256x512 : Shape := ⟨2, ![256, 512]⟩
abbrev S256 : Shape := ⟨1, ![256]⟩
abbrev S_ : Shape := ⟨0, ![]⟩
abbrev S64x512 : Shape := ⟨2, ![64, 512]⟩
abbrev S512x256 : Shape := ⟨2, ![512, 256]⟩
abbrev S64x256 : Shape := ⟨2, ![64, 256]⟩
abbrev S1x256 : Shape := ⟨2, ![1, 256]⟩
abbrev S262144x1 : Shape := ⟨2, ![262144, 1]⟩
abbrev S262144x512 : Shape := ⟨2, ![262144, 512]⟩

abbrev nBuf : Space → Nat
  | .hbm => 32
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S64x16x512, .f32⟩
  | .hbm, ⟨2, _⟩ => ⟨S262144, .i32⟩
  | .hbm, ⟨3, _⟩ => ⟨S256x512, .f32⟩
  | .hbm, ⟨4, _⟩ => ⟨S256, .f32⟩
  | .hbm, ⟨5, _⟩ => ⟨S256x512, .f32⟩
  | .hbm, ⟨6, _⟩ => ⟨S256, .f32⟩
  | .hbm, ⟨7, _⟩ => ⟨S_, .f32⟩
  | .hbm, ⟨8, _⟩ => ⟨S64x512, .f32⟩
  | .hbm, ⟨9, _⟩ => ⟨S_, .f32⟩
  | .hbm, ⟨10, _⟩ => ⟨S64x512, .f32⟩
  | .hbm, ⟨11, _⟩ => ⟨S64x512, .f32⟩
  | .hbm, ⟨12, _⟩ => ⟨S512x256, .f32⟩
  | .hbm, ⟨13, _⟩ => ⟨S64x256, .f32⟩
  | .hbm, ⟨14, _⟩ => ⟨S1x256, .f32⟩
  | .hbm, ⟨15, _⟩ => ⟨S64x256, .f32⟩
  | .hbm, ⟨16, _⟩ => ⟨S64x256, .f32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x256, .f32⟩
  | .hbm, ⟨26, _⟩ => ⟨S262144x512, .f32⟩
  | .hbm, ⟨27, _⟩ => ⟨S512x256, .f32⟩
  | .hbm, ⟨28, _⟩ => ⟨S262144x256, .f32⟩
  | .hbm, ⟨29, _⟩ => ⟨S1x256, .f32⟩
  | .hbm, ⟨30, _⟩ => ⟨S262144x256, .f32⟩
  | .hbm, ⟨31, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S64x16x512_S64x512_d1 : S64x16x512.ReducesTo [1] S64x512
  h_S_ : 0 < S_.numel
  bcast_S_S64x512 : S_.BroadcastsInDim S64x512 (![] : Fin 0 → Fin S64x512.rank)
  transposes_S256x512_S512x256_1_0 : S256x512.Transposes [1, 0] S512x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x256_S262144x256_S262144x512_d1 : Shape.Concatenates [S262144x256, S262144x256] S262144x512 1
  bcast_S1x256_S262144x256_0_1 : S1x256.BroadcastsInDim S262144x256 (![0, 1] : Fin 2 → Fin S262144x256.rank)
  dot_S64x512_S512x256_S64x256_1_0_0_1_n_n_wf : DotDims.WF S64x512 S512x256 S64x256 [1] [0] [0] [1] [] []
  gather_S64x256_S262144x1_S262144x256_1_0_n_n_0_1_1256_wf : GatherDims.WF S64x256 S262144x1 S262144x256 [1] [0] [] [0] [] 1 ![1, 256]
  dot_S262144x512_S512x256_S262144x256_1_0_0_1_n_n_wf : DotDims.WF S262144x512 S512x256 S262144x256 [1] [0] [0] [1] [] []

variable [Facts₀]

def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def gather_S64x256_S262144x1_S262144x256_1_0_n_n_0_1_1256 : GatherDims S64x256 S262144x1 S262144x256 where
  offsetDims := [1]
  collapsedSliceDims := [0]
  operandBatchingDims := []
  startIndicesBatchingDims := []
  startIndexMap := [0]
  indexVectorDim := 1
  sliceSizes := ![1, 256]
  wf := gather_S64x256_S262144x1_S262144x256_1_0_n_n_0_1_1256_wf
def dot_S262144x512_S512x256_S262144x256_1_0_0_1_n_n : DotDims S262144x512 S512x256 S262144x256 where
  lhsContracting := [1]
  rhsContracting := [0]
  lhsNonContracting := [0]
  rhsNonContracting := [1]
  lhsBatch := []
  rhsBatch := []
  wf := dot_S262144x512_S512x256_S262144x256_1_0_0_1_n_n_wf

class Facts : Prop extends Facts₀ where

variable [Facts]
-- ==== Proof.Spec.lean ====
/-
  The result of both programs as ONE function of the argument arrays, and the pure facts that join them.

  With `ret` the pooled-and-projected table [64, 256] (both programs compute it by the same host operations),
  `row n` the table row that atom `n`'s batch index names, `Wl` the [256, 512] weight and `bl` the bias, output entry
  `(n, c)` is
      (∑ k < 256, h[n, k] · Wl[c, k]  +  ∑ k < 256, ret[row n, k] · Wl[c, 256 + k])  +  bl[c].
  The reference contracts the concatenated row `[h[n, :], ret[row n, :]]` of length 512 against `Wl[c, :]`: the sum over
  512 splits into the two sums over 256 (addition on the extended reals is a commutative monoid, so nothing about
  finiteness is needed). The kernel contracts `h[n, :]` against the left half of `Wl[c, :]`, and a one-hot row of
  length 64 against the table `ret · Wl[:, 256:]ᵀ`: a sum whose only nonzero weight is a 1 at `row n` is the summand at
  `row n` (`0 · x = 0` and `1 · x = x` for every extended real `x`).

  The batch indices are words read signed. On an index that is not negative the reference's wrap of negative indices is
  the identity, and the kernel's clamp into `[0, 63]` names the same table row as the gather's clamp of its start index
  (an index of 64 or more reads row 63 in both). On a negative index the two differ: the reference wraps −1 to row 63,
  the kernel clamps it to row 0.
-/
import Idealize.ShloMosaic.PureOps.Ideal
import Idealize.ShloMosaic.Lib.ValueIdx
import Idealize.ShloMosaic.Lib.StableHlo.Predicate

noncomputable section

namespace Cert.Spec

open Idealize.ShloMosaic Idealize.ShloMosaic.ValueIdx

/-! ## The batch indices -/

/-- No batch index, read signed, is negative. -/
def NonNeg (batch : IVec ⟨1, ![262144]⟩ 32) : Prop :=
  ∀ n : Fin 262144, 0 ≤ (batch (ix1 n)).toInt

/-- The table row atom `n` reads: its batch index read signed and clamped into the table, as a gather clamps a start
    index. -/
def rowOf (batch : IVec ⟨1, ![262144]⟩ 32) (n : Fin 262144) : Fin 64 :=
  ⟨min (batch (ix1 n)).toInt.toNat 63, by omega⟩

/-- A word whose signed reading is in `[0, 64)` is that small natural number. -/
theorem toNat_of_range (w : BitVec 32) (h0 : 0 ≤ w.toInt) (h1 : w.toInt < 64) : w.toNat < 64 ∧ w.toInt = w.toNat := by
  have h := BitVec.toInt_eq_toNat_cond w
  have hlt := w.isLt
  split_ifs at h <;> omega

/-- So it is the word of the row it names. -/
theorem word_eq_ofNat_row (w : BitVec 32) (h0 : 0 ≤ w.toInt) (h1 : w.toInt < 64) :
    w = BitVec.ofNat 32 (min w.toInt.toNat 63) := by
  obtain ⟨hn, he⟩ := toNat_of_range w h0 h1
  apply BitVec.eq_of_toNat_eq
  rw [BitVec.toNat_ofNat, he]
  omega

/-- Two naturals below 64 with the same 32-bit word are equal. -/
theorem ofNat_inj_small {a b : ℕ} (ha : a < 64) (hb : b < 64) (h : BitVec.ofNat 32 a = BitVec.ofNat 32 b) : a = b := by
  have := congrArg BitVec.toNat h
  rw [BitVec.toNat_ofNat, BitVec.toNat_ofNat] at this
  omega

/-- Clamping a word that is not negative into `[0, 63]` (a signed maximum with 0, then a signed minimum with 63) gives
    the word of the table row it names: the word itself below 64, and 63 from 64 on. -/
theorem clip_eq_ofNat_row (w : BitVec 32) (h0 : 0 ≤ w.toInt) :
    IntOp.minsi 63#32 (IntOp.maxsi 0#32 w) = BitVec.ofNat 32 (min w.toInt.toNat 63) := by
  have e0 : (0#32 : BitVec 32).toInt = 0 := by decide
  have e63 : (63#32 : BitVec 32).toInt = 63 := by decide
  have hmax : IntOp.maxsi 0#32 w = w := by
    unfold IntOp.maxsi
    rw [if_neg]
    rw [BitVec.slt_iff_toInt_lt, e0]
    omega
  rw [hmax]
  unfold IntOp.minsi
  by_cases h : 63 < w.toInt
  · rw [if_pos (by rw [BitVec.slt_iff_toInt_lt, e63]; exact h)]
    have : min w.toInt.toNat 63 = 63 := by omega
    rw [this]
  · rw [if_neg (by rw [BitVec.slt_iff_toInt_lt, e63]; exact h)]
    exact word_eq_ofNat_row w h0 (by omega)

/-- Wrapping a negative index by the table's length (select (w < 0) (w + 64) w) changes nothing on an index that is
    not negative. -/
theorem wrap_of_nonneg (w : BitVec 32) (h0 : 0 ≤ w.toInt) :
    Scalar.select (IntOp.cmpi .slt w 0#32) (IntOp.addi w 64#32) w = w := by
  have e0 : (0#32 : BitVec 32).toInt = 0 := by decide
  have hc : IntOp.cmpi .slt w 0#32 = 0#1 := by
    unfold IntOp.cmpi
    have : w.slt 0#32 = false := by
      rw [Bool.eq_false_iff, ne_eq, BitVec.slt_iff_toInt_lt, e0]
      omega
    simp only [this]
    rfl
  rw [hc]
  exact ValueIdx.select_zero _ _

/-- The kernel's one-hot entry: the equality bit of two words, widened to 32 bits and read as a signed integer, is the
    real 1 where the words are equal and 0 elsewhere. -/
theorem onehot_entry (a b : BitVec 32) :
    ((((IntOp.cmpi .eq a b).setWidth 32).toInt : ℝ) : EReal) = if a = b then 1 else 0 := by
  by_cases h : a = b
  · rw [if_pos h, StableHlo.Predicate.cmpi_eq_iff.mpr h]
    have : ((1#1 : BitVec 1).setWidth 32).toInt = 1 := by decide
    rw [this]
    norm_num
  · rw [if_neg h]
    have hc : IntOp.cmpi .eq a b = 0#1 := ValueIdx.eq_zero_of_ne_one (fun hc => h (StableHlo.Predicate.cmpi_eq_iff.mp hc))
    rw [hc]
    have : ((0#1 : BitVec 1).setWidth 32).toInt = 0 := by decide
    rw [this]
    norm_num

/-! ## Sums on the extended reals -/

/-- A sum weighted by a one-hot row is the summand at the hot position. -/
theorem sum_onehot (b : Fin 64) (f : Fin 64 → EReal) :
    ∑ j : Fin 64, (if b = j then (1 : EReal) else 0) * f j = f b := by
  rw [Finset.sum_eq_single b (fun j _ hj => by rw [if_neg (Ne.symm hj), zero_mul])
    (fun hb => absurd (Finset.mem_univ b) hb), if_pos rfl, one_mul]

/-- A sum over 512 positions is the sum over the first 256 plus the sum over the last 256. -/
theorem sum_split (f : Fin 512 → EReal) :
    ∑ k : Fin 512, f k = ∑ k : Fin 256, f ⟨k.val, by omega⟩ + ∑ k : Fin 256, f ⟨256 + k.val, by omega⟩ :=
  calc ∑ k : Fin 512, f k = ∑ i : Fin (256 + 256), f (Fin.cast (by norm_num) i) :=
        (Fintype.sum_equiv (finCongr (by norm_num : 256 + 256 = 512)) _ _ (fun _ => rfl)).symm
    _ = _ := Fin.sum_univ_add _

/-! ## The result -/

/-- Output entry `(n, c)`: row `n` of `h` against the left half of row `c` of `Wl`, plus row `row n` of the table against
    the right half, plus the bias at `c`. -/
def G (h : (⟨2, ![262144, 256]⟩ : Shape).Idx → EReal) (ret : (⟨2, ![64, 256]⟩ : Shape).Idx → EReal)
    (row : Fin 262144 → Fin 64) (Wl : (⟨2, ![256, 512]⟩ : Shape).Idx → EReal) (bl : (⟨1, ![256]⟩ : Shape).Idx → EReal) :
    (⟨2, ![262144, 256]⟩ : Shape).Idx → EReal :=
  fun i => (∑ k : Fin 256, h (ix2 (i 0) k) * Wl (ix2 (i 1) (⟨k.val, by omega⟩ : Fin 512))
      + ∑ k : Fin 256, ret (ix2 (row (i 0)) k) * Wl (ix2 (i 1) (⟨256 + k.val, by omega⟩ : Fin 512)))
    + bl (ix1 (i 1))

end Cert.Spec

end
-- ==== Proof.Payload.lean ====
/-
  The kernel body's stored value, read at an entry of the output block.

  For a block of 4096 atoms the body stores, at row `p` and column `q`,
      (∑ k < 256, hblk[p, k] · w1[k, q]  +  ∑ j < 64, onehot[p, j] · r2[j, q])  +  bl[0, q],
  where `onehot[p, j]` is 1 when atom `p`'s (clamped) batch index is the word of `j` and 0 otherwise: the body compares
  the batch indices, broadcast along 64 columns, with the column number, widens the bit and converts it to a float. At the
  ideal instance a change of float format is the identity, each matrix product into a zero accumulator is the plain sum
  of products over the contracted axis, and the sum of vectors is the sum entry by entry.
-/
import proofs.«412373_j90701119357422_3_alg».proof.Proof.Gen.KernelIdeal.Skeleton
import proofs.«412373_j90701119357422_3_alg».proof.Proof.Spec
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The product of a row block of `h` with the left weight -/

theorem lhsA_0 (i : S4096x256.Idx) (qq : dot_S4096x256_S256x256_S4096x256_1_0_0_1_n_n.contr.Idx) :
    (dot_S4096x256_S256x256_S4096x256_1_0_0_1_n_n.lhsIdx i qq 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhsA_1 (i : S4096x256.Idx) (qq : dot_S4096x256_S256x256_S4096x256_1_0_0_1_n_n.contr.Idx) :
    (dot_S4096x256_S256x256_S4096x256_1_0_0_1_n_n.lhsIdx i qq 1).val = (qq ⟨0, by decide⟩).val :=
  dot_S4096x256_S256x256_S4096x256_1_0_0_1_n_n.lhsIdx_val_of_single rfl i qq
theorem rhsA_0 (i : S4096x256.Idx) (qq : dot_S4096x256_S256x256_S4096x256_1_0_0_1_n_n.contr.Idx) :
    (dot_S4096x256_S256x256_S4096x256_1_0_0_1_n_n.rhsIdx i qq 0).val = (qq ⟨0, by decide⟩).val :=
  dot_S4096x256_S256x256_S4096x256_1_0_0_1_n_n.rhsIdx_val_of_single rfl i qq
theorem rhsA_1 (i : S4096x256.Idx) (qq : dot_S4096x256_S256x256_S4096x256_1_0_0_1_n_n.contr.Idx) :
    (dot_S4096x256_S256x256_S4096x256_1_0_0_1_n_n.rhsIdx i qq 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- A [4096, 256] × [256, 256] product into a zero accumulator, at entry `(p, q)`: row `p` against column `q`. -/
theorem matmulA_apply (l : FVec Ideal S4096x256 .bf16) (r : FVec Ideal S256x256 .bf16) (p : Fin 4096) (q : Fin 256) :
    matmul dot_S4096x256_S256x256_S4096x256_1_0_0_1_n_n none l r (constant (F := Ideal) S4096x256 .f32 0x00000000#32) (ix2 p q)
      = ∑ k : Fin 256, l (ix2 p k) * r (ix2 k q) := by
  simp only [matmul]
  rw [Ideal.matmul_constant_zero_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 p q) ((ValueIdx.contrEquiv1 dot_S4096x256_S256x256_S4096x256_1_0_0_1_n_n 256 rfl rfl).symm k) = ix2 p k := funext fun a => Fin.ext (by
    match a with
    | ⟨0, _⟩ => exact lhsA_0 _ _
    | ⟨1, _⟩ => exact (lhsA_1 _ _).trans hk)
  have er : dot_S4096x256_S256x256_S4096x256_1_0_0_1_n_n.rhsIdx (ix2 p q) ((ValueIdx.contrEquiv1 dot_S4096x256_S256x256_S4096x256_1_0_0_1_n_n 256 rfl rfl).symm k) = ix2 k q := funext fun a => Fin.ext (by
    match a with
    | ⟨0, _⟩ => exact (rhsA_0 _ _).trans hk
    | ⟨1, _⟩ => exact rhsA_1 _ _)
  rw [el, er]

/-! ## The product of the one-hot rows with the projected table -/

theorem lhsB_0 (i : S4096x256.Idx) (qq : dot_S4096x64_S64x256_S4096x256_1_0_0_1_n_n.contr.Idx) :
    (dot_S4096x64_S64x256_S4096x256_1_0_0_1_n_n.lhsIdx i qq 0).val = (i 0).val := by
  unfold DotDims.lhsIdx
  rw [dif_neg (show ¬(0 : Fin S4096x64.rank) ∈ dot_S4096x64_S64x256_S4096x256_1_0_0_1_n_n.lhsBatch by decide), dif_pos (show (0 : Fin S4096x64.rank) ∈ dot_S4096x64_S64x256_S4096x256_1_0_0_1_n_n.lhsNonContracting by decide)]
  rfl
theorem lhsB_1 (i : S4096x256.Idx) (qq : dot_S4096x64_S64x256_S4096x256_1_0_0_1_n_n.contr.Idx) :
    (dot_S4096x64_S64x256_S4096x256_1_0_0_1_n_n.lhsIdx i qq 1).val = (qq ⟨0, by decide⟩).val :=
  dot_S4096x64_S64x256_S4096x256_1_0_0_1_n_n.lhsIdx_val_of_single rfl i qq
theorem rhsB_0 (i : S4096x256.Idx) (qq : dot_S4096x64_S64x256_S4096x256_1_0_0_1_n_n.contr.Idx) :
    (dot_S4096x64_S64x256_S4096x256_1_0_0_1_n_n.rhsIdx i qq 0).val = (qq ⟨0, by decide⟩).val :=
  dot_S4096x64_S64x256_S4096x256_1_0_0_1_n_n.rhsIdx_val_of_single rfl i qq
theorem rhsB_1 (i : S4096x256.Idx) (qq : dot_S4096x64_S64x256_S4096x256_1_0_0_1_n_n.contr.Idx) :
    (dot_S4096x64_S64x256_S4096x256_1_0_0_1_n_n.rhsIdx i qq 1).val = (i 1).val := by
  unfold DotDims.rhsIdx
  rw [dif_neg (show ¬(1 : Fin S64x256.rank) ∈ dot_S4096x64_S64x256_S4096x256_1_0_0_1_n_n.rhsBatch by decide), dif_pos (show (1 : Fin S64x256.rank) ∈ dot_S4096x64_S64x256_S4096x256_1_0_0_1_n_n.rhsNonContracting by decide)]
  rfl

/-- A [4096, 64] × [64, 256] product into a zero accumulator, at entry `(p, q)`. -/
theorem matmulB_apply (l : FVec Ideal S4096x64 .bf16) (r : FVec Ideal S64x256 .bf16) (p : Fin 4096) (q : Fin 256) :
    matmul dot_S4096x64_S64x256_S4096x256_1_0_0_1_n_n none l r (constant (F := Ideal) S4096x256 .f32 0x00000000#32) (ix2 p q)
      = ∑ j : Fin 64, l (ix2 p j) * r (ix2 j q) := by
  simp only [matmul]
  rw [Ideal.matmul_constant_zero_apply, ← Equiv.sum_comp (ValueIdx.contrEquiv1 dot_S4096x64_S64x256_S4096x256_1_0_0_1_n_n 64 rfl rfl).symm]
  refine Finset.sum_congr rfl fun k _ => ?_
  have hk := ValueIdx.contrEquiv1_symm_val dot_S4096x64_S64x256_S4096x256_1_0_0_1_n_n 64 rfl rfl k
  have el : dot_S4096x64_S64x256_S4096x256_1_0_0_1_n_n.lhsIdx (ix2 p q) ((ValueIdx.contrEquiv1 dot_S4096x64_S64x256_S4096x256_1_0_0_1_n_n 64 rfl rfl).symm k) = ix2 p k := funext fun a => Fin.ext (by
    match a with
    | ⟨0, _⟩ => exact lhsB_0 _ _
    | ⟨1, _⟩ => exact (lhsB_1 _ _).trans hk)
  have er : dot_S4096x64_S64x256_S4096x256_1_0_0_1_n_n.rhsIdx (ix2 p q) ((ValueIdx.contrEquiv1 dot_S4096x64_S64x256_S4096x256_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ## The one-hot rows -/

/-- The batch block [1, 4096], reshaped to a column and broadcast along 64 columns, at `(p, j)` is entry `p` of the block. -/
theorem batch_bcast_apply (x1 : IVec S1x4096 32) (p : Fin 4096) (j : Fin 64) :
    broadcastTo S4096x64 (shapeCast S4096x1 (shapeCast S4096 x1 shapeCasts_S1x4096_S4096) shapeCasts_S4096_S4096x1)
      broadcasts_S4096x1_S4096x64 (ix2 p j) = x1 (ix2 (0 : Fin 1) p) := by
  refine (broadcastTo_apply _ broadcasts_S4096x1_S4096x64 (ix2 p j) (ix2 p (0 : Fin 1)) (fun a => by
    match a with
    | ⟨0, _⟩ => show p.val = if (4096 : Nat) = 1 then 0 else p.val; rw [if_neg (by decide)]
    | ⟨1, _⟩ => show 0 = if (1 : Nat) = 1 then 0 else _; rw [if_pos rfl])).trans ?_
  refine (shapeCast_apply _ shapeCasts_S4096_S4096x1 (ix2 p (0 : Fin 1)) (ix1 p) (by
    rw [Shape.rowMajor_val_one, Shape.rowMajor_val_two]
    show p.val = p.val * 1 + 0
    omega)).trans ?_
  exact shapeCast_apply _ shapeCasts_S1x4096_S4096 (ix1 p) (ix2 (0 : Fin 1) p) (by
    rw [Shape.rowMajor_val_one, Shape.rowMajor_val_two]
    show 0 * 4096 + p.val = p.val
    omega)

/-- The one-hot entry `(p, j)`: 1 when atom `p`'s batch index is the word of `j`, else 0. -/
theorem onehot_apply (x1 : IVec S1x4096 32) (p : Fin 4096) (j : Fin 64) :
    (truncf .bf16 (sitofp (F := Ideal) .f32 (extui 32 (cmpi .eq
        (broadcastTo S4096x64 (shapeCast S4096x1 (shapeCast S4096 x1 shapeCasts_S1x4096_S4096) shapeCasts_S4096_S4096x1) broadcasts_S4096x1_S4096x64)
        (iota .tc S4096x64 32 [1] iota_S4096x64_d1_w32)) natLt_1_32)) bitsLt_bf16_f32 : FVec Ideal S4096x64 .bf16) (ix2 p j)
      = if x1 (ix2 (0 : Fin 1) p) = BitVec.ofNat 32 j.val then (1 : EReal) else 0 := by
  rw [truncf_apply, sitofp_apply, extui_apply]
  show ((((IntOp.cmpi .eq (broadcastTo S4096x64 (shapeCast S4096x1 (shapeCast S4096 x1 shapeCasts_S1x4096_S4096) shapeCasts_S4096_S4096x1) broadcasts_S4096x1_S4096x64 (ix2 p j))
      (iota .tc S4096x64 32 [1] iota_S4096x64_d1_w32 (ix2 p j))).setWidth 32).toInt : ℝ) : EReal) = _
  rw [Cert.Spec.onehot_entry, batch_bcast_apply, iota_single_apply]

/-! ## The stored value at an entry -/

/-- The body's stored value at `(p, q)`. -/
theorem pay_apply (x0 : FVec Ideal S4096x256 .f32) (x1 : IVec S1x4096 32) (x2 : FVec Ideal S64x256 .bf16)
    (x3 : FVec Ideal S256x256 .bf16) (x4 : FVec Ideal S1x256 .f32) (p : Fin 4096) (q : Fin 256) :
    k0_pay1 (F := Ideal) x0 x1 x2 x3 x4 (ix2 p q)
      = (∑ k : Fin 256, x0 (ix2 p k) * x3 (ix2 k q)
          + ∑ j : Fin 64, (if x1 (ix2 (0 : Fin 1) p) = BitVec.ofNat 32 j.val then (1 : EReal) else 0) * x2 (ix2 j q))
        + x4 (ix2 (0 : Fin 1) q) := by
  unfold k0_pay1
  dsimp only
  rw [addf_apply, addf_apply, matmulA_apply, matmulB_apply, shapeCast_self, shapeCast_self, shapeCast_self]
  refine congrArg₂ (· + ·) (congrArg₂ (· + ·) rfl (Finset.sum_congr rfl fun j _ => ?_)) ?_
  · rw [onehot_apply]
  · exact broadcastTo_apply _ broadcasts_S1x256_S4096x256 (ix2 p q) (ix2 (0 : Fin 1) q) (fun a => by
      match a with
      | ⟨0, _⟩ => show 0 = if (1 : Nat) = 1 then 0 else _; rw [if_pos rfl]
      | ⟨1, _⟩ => show q.val = if (256 : Nat) = 1 then 0 else q.val; rw [if_neg (by decide)])

end Cert.KernelIdeal.Pay

end
-- ==== Proof.HostPrefix.lean ====
/-
  What the kernel's region finds in the arrays the host operations before it wrote.

  Before the region the host computes the pooled table `ret` (the mean over the 16 retrieved features, projected by `Wp`,
  plus `bp`) exactly as the reference does, then `r2 = ret · Wl[:, 256:]ᵀ` (a [64, 256] table), the transposed left half
  `w1 = Wl[:, :256]ᵀ`, the bias as one row, and the batch indices clamped into `[0, 63]` as one row. Read at an entry:
  `r2[j, c] = ∑ k < 256, ret[j, k] · Wl[c, 256 + k]`, `w1[k, c] = Wl[c, k]`, the bias row at `(0, c)` is `bl[c]`, and the
  batch row at `(0, n)` is the clamp of `batch[n]`. (The changes of float format are the identity at the ideal instance.)
-/
import proofs.«412373_j90701119357422_3_alg».proof.Proof.Gen.KernelIdeal.Frame
import proofs.«412373_j90701119357422_3_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The arguments as launched, at their literal types -/

/-- `h`. -/
abbrev xh (c : Dev nD) : FVec Ideal S262144x256 .f32 := m ((c : Thread nD τ).loc main_arg0)
/-- `ret_feat`. -/
abbrev xrf (c : Dev nD) : FVec Ideal S64x16x512 .f32 := m ((c : Thread nD τ).loc main_arg1)
/-- `batch`. -/
abbrev xbatch (c : Dev nD) : IVec S262144 32 := m ((c : Thread nD τ).loc main_arg2)
/-- `Wp`. -/
abbrev xWp (c : Dev nD) : FVec Ideal S256x512 .f32 := m ((c : Thread nD τ).loc main_arg3)
/-- `bp`. -/
abbrev xbp (c : Dev nD) : FVec Ideal S256 .f32 := m ((c : Thread nD τ).loc main_arg4)
/-- `Wl`. -/
abbrev xWl (c : Dev nD) : FVec Ideal S256x512 .f32 := m ((c : Thread nD τ).loc main_arg5)
/-- `bl`. -/
abbrev xbl (c : Dev nD) : FVec Ideal S256 .f32 := m ((c : Thread nD τ).loc main_arg6)

/-! ## The arrays the region finds, at their literal types -/

/-- `h`, as launched. -/
abbrev harr (c : Dev nD) : FVec Ideal S262144x256 .f32 := V m c main_arg0
/-- The clamped batch indices, one row. -/
abbrev btarr (c : Dev nD) : IVec S1x262144 32 := V m c main_v17
/-- The pooled table projected by the right half of `Wl`. -/
abbrev r2arr (c : Dev nD) : FVec Ideal S64x256 .bf16 := V m c main_v13
/-- The left half of `Wl`, transposed. -/
abbrev w1arr (c : Dev nD) : FVec Ideal S256x256 .bf16 := V m c main_v14
/-- The bias, one row. -/
abbrev b2arr (c : Dev nD) : FVec Ideal S1x256 .f32 := V m c main_v15

/-- The pooled-and-projected table, as the kernel's host operations compute it from `ret_feat`, `Wp` and `bp`. -/
def retK (x1 : FVec Ideal S64x16x512 .f32) (x3 : FVec Ideal S256x512 .f32) (x4 : FVec Ideal S256 .f32) : FVec Ideal S64x256 .f32 :=
  addf
    (Host.dotGeneral dot_S64x512_S512x256_S64x256_1_0_0_1_n_n (some .fp32)
      (Host.divf
        (Host.reduceAdd x1 (constant (F := Ideal) S_ .f32 0x00000000#32) reducesTo_S64x16x512_S64x512_d1 h_S_)
        (broadcastInDim S64x512 ![] bcast_S_S64x512 (constant (F := Ideal) S_ .f32 0x41800000#32)))
      (transpose S512x256 [1, 0] x3 transposes_S256x512_S512x256_1_0))
    (broadcastInDim S64x256 ![0, 1] bcast_S1x256_S64x256_0_1 (broadcastInDim S1x256 ![1] bcast_S256_S1x256_1 x4))

/-- The right half of `Wl`, transposed: the [256, 256] operand the table is projected by. -/
def wl2t (x5 : FVec Ideal S256x512 .f32) : FVec Ideal S256x256 .f32 :=
  transpose S256x256 [1, 0] (extractStridedSlice S256x256 ![0, 256] x5 slices_S256x512_S256x256_0_256) transposes_S256x256_S256x256_1_0

/-! ## The arrays as terms of the arguments -/

theorem V_r2 (c : Dev nD) : r2arr m c
    = truncf .bf16 (Host.dotGeneral dot_S64x256_S256x256_S64x256_1_0_0_1_n_n (some .fp32)
        (retK (m ((c : Thread nD τ).loc main_arg1)) (m ((c : Thread nD τ).loc main_arg3)) (m ((c : Thread nD τ).loc main_arg4)))
        (wl2t (m ((c : Thread nD τ).loc main_arg5)))) bitsLt_bf16_f32 := by
  show V m c _ = _
  dsimp only [Gen.V]
  simp only [Gen.hostOps0, Gen.hostOps0_1, Gen.hostOps0_2, List.flatten_cons, List.flatten_nil, List.append_nil, List.cons_append, List.nil_append]
  after_results <;> rfl

theorem V_w1 (c : Dev nD) : w1arr m c
    = truncf (F := Ideal) .bf16 (transpose S256x256 [1, 0] (extractStridedSlice S256x256 ![0, 0] (m ((c : Thread nD τ).loc main_arg5)) slices_S256x512_S256x256_0_0) transposes_S256x256_S256x256_1_0) bitsLt_bf16_f32 := by
  show V m c _ = _
  dsimp only [Gen.V]
  simp only [Gen.hostOps0, Gen.hostOps0_1, Gen.hostOps0_2, List.flatten_cons, List.flatten_nil, List.append_nil, List.cons_append, List.nil_append]
  after_results <;> rfl

theorem V_b2 (c : Dev nD) : b2arr m c
    = shapeCast S1x256 (m ((c : Thread nD τ).loc main_arg6)) shapeCasts_S256_S1x256 := by
  show V m c _ = _
  dsimp only [Gen.V]
  simp only [Gen.hostOps0, Gen.hostOps0_1, Gen.hostOps0_2, List.flatten_cons, List.flatten_nil, List.append_nil, List.cons_append, List.nil_append]
  after_results <;> rfl

theorem V_bt (c : Dev nD) : btarr m c
    = shapeCast S1x262144 (minsi (broadcastInDim S262144 ![] bcast_S_S262144 (constantI S_ 32 63#32))
        (maxsi (broadcastInDim S262144 ![] bcast_S_S262144 (constantI S_ 32 0#32)) (m ((c : Thread nD τ).loc main_arg2))))
        shapeCasts_S262144_S1x262144 := by
  show V m c _ = _
  dsimp only [Gen.V]
  simp only [Gen.hostOps0, Gen.hostOps0_1, Gen.hostOps0_2, List.flatten_cons, List.flatten_nil, List.append_nil, List.cons_append, List.nil_append]
  after_results <;> rfl

/-! ## The arrays read at an entry -/

theorem lhsC_0 (i : S64x256.Idx) (qq : dot_S64x256_S256x256_S64x256_1_0_0_1_n_n.contr.Idx) :
    (dot_S64x256_S256x256_S64x256_1_0_0_1_n_n.lhsIdx i qq 0).val = (i 0).val := by
  unfold DotDims.lhsIdx
  rw [dif_neg (show ¬(0 : Fin S64x256.rank) ∈ dot_S64x256_S256x256_S64x256_1_0_0_1_n_n.lhsBatch by decide), dif_pos (show (0 : Fin S64x256.rank) ∈ dot_S64x256_S256x256_S64x256_1_0_0_1_n_n.lhsNonContracting by decide)]
  rfl
theorem lhsC_1 (i : S64x256.Idx) (qq : dot_S64x256_S256x256_S64x256_1_0_0_1_n_n.contr.Idx) :
    (dot_S64x256_S256x256_S64x256_1_0_0_1_n_n.lhsIdx i qq 1).val = (qq ⟨0, by decide⟩).val :=
  dot_S64x256_S256x256_S64x256_1_0_0_1_n_n.lhsIdx_val_of_single rfl i qq
theorem rhsC_0 (i : S64x256.Idx) (qq : dot_S64x256_S256x256_S64x256_1_0_0_1_n_n.contr.Idx) :
    (dot_S64x256_S256x256_S64x256_1_0_0_1_n_n.rhsIdx i qq 0).val = (qq ⟨0, by decide⟩).val :=
  dot_S64x256_S256x256_S64x256_1_0_0_1_n_n.rhsIdx_val_of_single rfl i qq
theorem rhsC_1 (i : S64x256.Idx) (qq : dot_S64x256_S256x256_S64x256_1_0_0_1_n_n.contr.Idx) :
    (dot_S64x256_S256x256_S64x256_1_0_0_1_n_n.rhsIdx i qq 1).val = (i 1).val := by
  unfold DotDims.rhsIdx
  rw [dif_neg (show ¬(1 : Fin S256x256.rank) ∈ dot_S64x256_S256x256_S64x256_1_0_0_1_n_n.rhsBatch by decide), dif_pos (show (1 : Fin S256x256.rank) ∈ dot_S64x256_S256x256_S64x256_1_0_0_1_n_n.rhsNonContracting by decide)]
  rfl

/-- The host's [64, 256] × [256, 256] product at entry `(j, q)`: row `j` against column `q`. -/
theorem dotC_apply (l : FVec Ideal S64x256 .f32) (r : FVec Ideal S256x256 .f32) (j : Fin 64) (q : Fin 256) :
    Host.dotGeneral dot_S64x256_S256x256_S64x256_1_0_0_1_n_n (some .fp32) l r (ix2 j q)
      = ∑ k : Fin 256, l (ix2 j k) * r (ix2 k q) := by
  simp only [Host.dotGeneral]
  rw [Ideal.dotGeneral_apply, ← Equiv.sum_comp (ValueIdx.contrEquiv1 dot_S64x256_S256x256_S64x256_1_0_0_1_n_n 256 rfl rfl).symm]
  refine Finset.sum_congr rfl fun k _ => ?_
  have hk := ValueIdx.contrEquiv1_symm_val dot_S64x256_S256x256_S64x256_1_0_0_1_n_n 256 rfl rfl k
  have el : dot_S64x256_S256x256_S64x256_1_0_0_1_n_n.lhsIdx (ix2 j q) ((ValueIdx.contrEquiv1 dot_S64x256_S256x256_S64x256_1_0_0_1_n_n 256 rfl rfl).symm k) = ix2 j k := funext fun a => Fin.ext (by
    match a with
    | ⟨0, _⟩ => exact lhsC_0 _ _
    | ⟨1, _⟩ => exact (lhsC_1 _ _).trans hk)
  have er : dot_S64x256_S256x256_S64x256_1_0_0_1_n_n.rhsIdx (ix2 j q) ((ValueIdx.contrEquiv1 dot_S64x256_S256x256_S64x256_1_0_0_1_n_n 256 rfl rfl).symm k) = ix2 k q := funext fun a => Fin.ext (by
    match a with
    | ⟨0, _⟩ => exact (rhsC_0 _ _).trans hk
    | ⟨1, _⟩ => exact rhsC_1 _ _)
  rw [el, er]

/-- The transposed right half of `Wl` at `(k, q)` is `Wl[q, 256 + k]`. -/
theorem wl2t_apply (x5 : FVec Ideal S256x512 .f32) (k q : Fin 256) :
    wl2t x5 (ix2 k q) = x5 (ix2 q (⟨256 + k.val, by omega⟩ : Fin 512)) := by
  unfold wl2t
  refine (transpose_apply [1, 0] _ transposes_S256x256_S256x256_1_0 (ix2 k q) (ix2 q k) (fun b => by
    match b with
    | ⟨0, _⟩ => rfl
    | ⟨1, _⟩ => rfl)).trans ?_
  exact extractStridedSlice_apply _ x5 slices_S256x512_S256x256_0_256 (ix2 q k) (ix2 q (⟨256 + k.val, by omega⟩ : Fin 512)) (fun a => by
    match a with
    | ⟨0, _⟩ => show q.val = 0 + q.val; omega
    | ⟨1, _⟩ => show 256 + k.val = 256 + k.val; rfl)

/-- The projected table at `(j, q)`: row `j` of the pooled table against the right half of row `q` of `Wl`. -/
theorem r2_apply (c : Dev nD) (j : Fin 64) (q : Fin 256) :
    r2arr m c (ix2 j q)
      = ∑ k : Fin 256, retK (xrf m c) (xWp m c) (xbp m c) (ix2 j k) * xWl m c (ix2 q (⟨256 + k.val, by omega⟩ : Fin 512)) := by
  rw [V_r2, truncf_apply, dotC_apply]
  exact Finset.sum_congr rfl fun k _ => by rw [wl2t_apply]

/-- The left weight at `(k, q)` is `Wl[q, k]`. -/
theorem w1_apply (c : Dev nD) (k q : Fin 256) :
    w1arr m c (ix2 k q)
      = xWl m c (ix2 q (⟨k.val, by omega⟩ : Fin 512)) := by
  rw [V_w1, truncf_apply]
  refine (transpose_apply [1, 0] _ transposes_S256x256_S256x256_1_0 (ix2 k q) (ix2 q k) (fun b => by
    match b with
    | ⟨0, _⟩ => rfl
    | ⟨1, _⟩ => rfl)).trans ?_
  exact extractStridedSlice_apply _ _ slices_S256x512_S256x256_0_0 (ix2 q k) (ix2 q (⟨k.val, by omega⟩ : Fin 512)) (fun a => by
    match a with
    | ⟨0, _⟩ => show q.val = 0 + q.val; omega
    | ⟨1, _⟩ => show k.val = 0 + k.val; omega)

/-- The bias row at `(0, q)` is `bl[q]`. -/
theorem b2_apply (c : Dev nD) (q : Fin 256) :
    b2arr m c (ix2 (0 : Fin 1) q) = xbl m c (ix1 q) := by
  rw [V_b2]
  exact shapeCast_apply _ shapeCasts_S256_S1x256 (ix2 (0 : Fin 1) q) (ix1 q) (by
    rw [Shape.rowMajor_val_one, Shape.rowMajor_val_two]
    show q.val = 0 * 256 + q.val
    omega)

/-- The batch row at `(0, n)` is `batch[n]` clamped into `[0, 63]`. -/
theorem bt_apply (c : Dev nD) (n : Fin 262144) :
    btarr m c (ix2 (0 : Fin 1) n)
      = IntOp.minsi 63#32 (IntOp.maxsi 0#32 (xbatch m c (ix1 n))) := by
  rw [V_bt]
  refine (shapeCast_apply _ shapeCasts_S262144_S1x262144 (ix2 (0 : Fin 1) n) (ix1 n) (by
    rw [Shape.rowMajor_val_one, Shape.rowMajor_val_two]
    show n.val = 0 * 262144 + n.val
    omega)).trans ?_
  rfl

end Cert.KernelIdeal.HostPrefix

end
-- ==== Proof.KernelValue.lean ====
/-
  The kernel's output array after the run, as one function of the arrays the region finds, and then of the arguments.

  Grid point `t` works on atoms `4096·t … 4096·t + 4095`: it reads that row block of `h` and that stretch of the batch
  row, the whole projected table, left weight and bias row, and writes that row block of the output. So what point `t`
  writes back is block `t` of ONE whole-array function `GK` (the body's stored value with each block entry replaced by
  the array entry it is), the 64 blocks tile the output, and the output array ends as `GK`. With the host-side arrays read
  at an entry, and no batch index negative (the clamped index is then the word of `rowOf batch n`, so the one-hot row of
  atom `n` is hot exactly there), `GK` is the common function `Spec.G`.
-/
import proofs.«412373_j90701119357422_3_alg».proof.Proof.Gen.KernelIdeal.Value
import proofs.«412373_j90701119357422_3_alg».proof.Proof.Payload
import proofs.«412373_j90701119357422_3_alg».proof.Proof.HostPrefix

noncomputable section

namespace Cert.KernelIdeal.KVal

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx
open Cert.KernelIdeal.HostPrefix (harr btarr r2arr w1arr b2arr xh xrf xbatch xWp xbp xWl xbl)

variable (m : (ℓ : Loc nD τ sig) → Buf (Elt Ideal) ℓ) (ρ : Dev nD → PrngReg)

/-! ## The windows' blocks, at their literal types (the arrays' are `HostPrefix`'s) -/

abbrev hblk (c : Dev nD) (t : Fin cfg0.N) : FVec Ideal S4096x256 .f32 := iblk m c 0 t
abbrev btblk (c : Dev nD) (t : Fin cfg0.N) : IVec S1x4096 32 := iblk m c 1 t
abbrev r2blk (c : Dev nD) (t : Fin cfg0.N) : FVec Ideal S64x256 .bf16 := iblk m c 2 t
abbrev w1blk (c : Dev nD) (t : Fin cfg0.N) : FVec Ideal S256x256 .bf16 := iblk m c 3 t
abbrev b2blk (c : Dev nD) (t : Fin cfg0.N) : FVec Ideal S1x256 .f32 := iblk m c 4 t

/-- The output array as one function of the arrays the region finds: the body's stored value, entry by entry. -/
def GK (hh : FVec Ideal S262144x256 .f32) (bt : IVec S1x262144 32) (r2 : FVec Ideal S64x256 .bf16)
    (w1 : FVec Ideal S256x256 .bf16) (b2 : FVec Ideal S1x256 .f32) : S262144x256.Idx → EReal :=
  fun i => (∑ k : Fin 256, hh (ix2 (i 0) k) * w1 (ix2 k (i 1))
      + ∑ j : Fin 64, (if bt (ix2 (0 : Fin 1) (i 0)) = BitVec.ofNat 32 j.val then (1 : EReal) else 0) * r2 (ix2 j (i 1)))
    + b2 (ix2 (0 : Fin 1) (i 1))

theorem hz : (![0, 0] : Fin 2 → Nat) = fun _ => 0 := funext fun a => by fin_cases a <;> rfl

/-- The index maps over the grid: the `h` and output windows step along the rows with the point, the batch window
    along its one row's columns, the three resident windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 64 := Nat.lt_of_lt_of_eq t.isLt N_0

/-! ## Each block entry is an array entry -/

theorem hblk_apply (c : Dev nD) (t : Fin cfg0.N) (p : Fin 4096) (k : Fin 256) :
    hblk m c t (ix2 p k) = harr m c (ix2 (⟨t.val * 4096 + p.val, by have := t_lt t; omega⟩ : Fin 262144) k) := by
  obtain ⟨e0, e1, -⟩ := idx_facts t
  show V m c main_arg0 (((cfg0.win 0).blk t).view.emb (ix2 p k)) = V m c main_arg0 _
  refine congrArg _ (funext fun a => Fin.ext ?_)
  match a with
  | ⟨0, _⟩ => show win0_0.index t (0 : Fin 2) * 4096 + 1 * p.val = t.val * 4096 + p.val; rw [e0]; omega
  | ⟨1, _⟩ => show win0_0.index t (1 : Fin 2) * 256 + 1 * k.val = k.val; rw [e1]; omega

theorem btblk_apply (c : Dev nD) (t : Fin cfg0.N) (p : Fin 4096) :
    btblk m c t (ix2 (0 : Fin 1) p) = btarr m c (ix2 (0 : Fin 1) (⟨t.val * 4096 + p.val, by have := t_lt t; omega⟩ : Fin 262144)) := by
  obtain ⟨-, -, e0, e1, -⟩ := idx_facts t
  show V m c main_v17 (((cfg0.win 1).blk t).view.emb (ix2 (0 : Fin 1) p)) = V m c main_v17 _
  refine congrArg _ (funext fun a => Fin.ext ?_)
  match a with
  | ⟨0, _⟩ => show win0_1.index t (0 : Fin 2) * 1 + 1 * 0 = 0; rw [e0]
  | ⟨1, _⟩ => show win0_1.index t (1 : Fin 2) * 4096 + 1 * p.val = t.val * 4096 + p.val; rw [e1]; omega

theorem r2blk_apply (c : Dev nD) (t : Fin cfg0.N) (j : Fin 64) (q : Fin 256) :
    r2blk m c t (ix2 j q) = r2arr m c (ix2 j q) := by
  obtain ⟨-, -, -, -, e0, e1, -⟩ := idx_facts t
  show V m c main_v13 (((cfg0.win 2).blk t).view.emb (ix2 j q)) = V m c main_v13 _
  refine congrArg _ (funext fun a => Fin.ext ?_)
  match a with
  | ⟨0, _⟩ => show win0_2.index t (0 : Fin 2) * 64 + 1 * j.val = j.val; rw [e0]; omega
  | ⟨1, _⟩ => show win0_2.index t (1 : Fin 2) * 256 + 1 * q.val = q.val; rw [e1]; omega

theorem w1blk_apply (c : Dev nD) (t : Fin cfg0.N) (k q : Fin 256) :
    w1blk m c t (ix2 k q) = w1arr m c (ix2 k q) := by
  obtain ⟨-, -, -, -, -, -, e0, e1, -⟩ := idx_facts t
  show V m c main_v14 (((cfg0.win 3).blk t).view.emb (ix2 k q)) = V m c main_v14 _
  refine congrArg _ (funext fun a => Fin.ext ?_)
  match a with
  | ⟨0, _⟩ => show win0_3.index t (0 : Fin 2) * 256 + 1 * k.val = k.val; rw [e0]; omega
  | ⟨1, _⟩ => show win0_3.index t (1 : Fin 2) * 256 + 1 * q.val = q.val; rw [e1]; omega

theorem b2blk_apply (c : Dev nD) (t : Fin cfg0.N) (q : Fin 256) :
    b2blk m c t (ix2 (0 : Fin 1) q) = b2arr m c (ix2 (0 : Fin 1) q) := by
  obtain ⟨-, -, -, -, -, -, -, -, e0, e1, -⟩ := idx_facts t
  show V m c main_v15 (((cfg0.win 4).blk t).view.emb (ix2 (0 : Fin 1) q)) = V m c main_v15 _
  refine congrArg _ (funext fun a => Fin.ext ?_)
  match a with
  | ⟨0, _⟩ => show win0_4.index t (0 : Fin 2) * 1 + 1 * 0 = 0; rw [e0]
  | ⟨1, _⟩ => show win0_4.index t (1 : Fin 2) * 256 + 1 * q.val = q.val; rw [e1]; omega

/-! ## What a point writes back, the cover, the final array -/

/-- WHAT POINT `t` WRITES BACK is block `t` of `GK` of the arrays the region finds. -/
theorem flushed_eq (c : Dev nD) (t : Fin cfg0.N) :
    (dats m 0 c).flushed 5 t
      = ((cfg0.win 5).blk t).view.read (Elt Ideal) (GK (harr m c) (btarr m c) (r2arr m c) (w1arr m c) (b2arr m c)) := by
  rw [flushed5]
  unfold out0_5
  rw [View.canon_unit_zero hz]
  simp only [View.ld_unit_zero (S := S4096x256) hz, View.ld_unit_zero (S := S1x4096) hz, View.ld_unit_zero (S := S64x256) hz,
    View.ld_unit_zero (S := S256x256) hz, View.ld_unit_zero (S := S1x256) hz]
  obtain ⟨-, -, -, -, -, -, -, -, -, -, e0, e1⟩ := idx_facts t
  funext j
  obtain ⟨p, q, rfl⟩ : ∃ (p : Fin 4096) (q : Fin 256), j = ix2 p q := ⟨j 0, j 1, eq_ix2 j⟩
  have hemb : ((cfg0.win 5).blk t).view.emb (ix2 p q) = ix2 (⟨t.val * 4096 + p.val, by have := t_lt t; omega⟩ : Fin 262144) q := by
    funext a; apply Fin.ext
    match a with
    | ⟨0, _⟩ => show win0_5.index t (0 : Fin 2) * 4096 + 1 * p.val = t.val * 4096 + p.val; rw [e0]; omega
    | ⟨1, _⟩ => show win0_5.index t (1 : Fin 2) * 256 + 1 * q.val = q.val; rw [e1]; omega
  show k0_pay1 (F := Ideal) (hblk m c t) (btblk m c t) (r2blk m c t) (w1blk m c t) (b2blk m c t) (ix2 p q)
    = GK (harr m c) (btarr m c) (r2arr m c) (w1arr m c) (b2arr m c) (((cfg0.win 5).blk t).view.emb (ix2 p q))
  rw [hemb, Pay.pay_apply]
  show _ = (∑ k : Fin 256, harr m c (ix2 (⟨t.val * 4096 + p.val, by have := t_lt t; omega⟩ : Fin 262144) k) * w1arr m c (ix2 k q)
      + ∑ j : Fin 64, (if btarr m c (ix2 (0 : Fin 1) (⟨t.val * 4096 + p.val, by have := t_lt t; omega⟩ : Fin 262144)) = BitVec.ofNat 32 j.val then (1 : EReal) else 0) * r2arr m c (ix2 j q))
    + b2arr m c (ix2 (0 : Fin 1) q)
  rw [btblk_apply, b2blk_apply]
  refine congrArg₂ (· + ·) (congrArg₂ (· + ·) (Finset.sum_congr rfl fun k _ => ?_) (Finset.sum_congr rfl fun j _ => ?_)) rfl
  · rw [hblk_apply, w1blk_apply]
  · rw [r2blk_apply]

/-- An index of the output is in point `t`'s block iff each coordinate is in the block's range on its axis. -/
theorem mem_blk (t : Fin cfg0.N) (i : S262144x256.Idx) :
    i ∈ ((cfg0.win 5).blk t).view.set ↔ ∀ a : Fin 2, win0_5.index t a * S4096x256.size a ≤ (i a).val ∧ (i a).val < win0_5.index t a * S4096x256.size a + S4096x256.size a := by
  show i ∈ ((View.whole main_v18).slice (win0_5.rect t)).set ↔ _
  rw [View.set_slice_whole, Rect.mem_set_unit]
  exact Iff.rfl

/-- Every index of the output is in the block of the point its row falls to. -/
theorem cover (i : S262144x256.Idx) : ∃ t : Fin cfg0.N, (cfg0.win 5).flush t = true ∧ i ∈ ((cfg0.win 5).blk t).view.set := by
  have hi0 : (i 0).val < 262144 := (i 0).isLt
  have hi1 : (i 1).val < 256 := (i 1).isLt
  let t : Fin cfg0.N := ⟨(i 0).val / 4096, by rw [show cfg0.N = 64 from N_0]; omega⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 4096 ≤ (i 0).val ∧ (i 0).val < win0_5.index t (0 : Fin 2) * 4096 + 4096
    rw [e0]
    show (i 0).val / 4096 * 4096 ≤ (i 0).val ∧ (i 0).val < (i 0).val / 4096 * 4096 + 4096
    omega
  | ⟨1, _⟩ =>
    show win0_5.index t (1 : Fin 2) * 256 ≤ (i 1).val ∧ (i 1).val < win0_5.index t (1 : Fin 2) * 256 + 256
    rw [e1]
    omega

/-- THE OUTPUT ARRAY after the run is `GK` of the arrays the region finds. -/
theorem final (c : Dev nD) :
    (dats m 0 c).arrAt 5 cfg0.N = GK (harr m c) (btarr m c) (r2arr m c) (w1arr m c) (b2arr m c) :=
  (dats m 0 c).arrAt_eq_of_cover 5 (GK (harr m c) (btarr m c) (r2arr m c) (w1arr m c) (b2arr m c))
    (fun t _ => flushed_eq m c t) cover

/-! ## From the arrays the region finds to the arguments -/

/-- With no batch index negative, `GK` of the arrays the region finds is the common function `Spec.G` of the
    arguments, the table being the kernel's own pooled-and-projected array. -/
theorem GK_eq_G (c : Dev nD) (hb : Cert.Spec.NonNeg (xbatch m c)) :
    GK (harr m c) (btarr m c) (r2arr m c) (w1arr m c) (b2arr m c)
      = Cert.Spec.G (xh m c) (HostPrefix.retK (xrf m c) (xWp m c) (xbp m c)) (Cert.Spec.rowOf (xbatch m c)) (xWl m c) (xbl m c) := by
  funext i
  obtain ⟨n, q, rfl⟩ : ∃ (n : Fin 262144) (q : Fin 256), i = ix2 n q := ⟨i 0, i 1, eq_ix2 i⟩
  show (∑ k : Fin 256, harr m c (ix2 n k) * w1arr m c (ix2 k q)
      + ∑ j : Fin 64, (if btarr m c (ix2 (0 : Fin 1) n) = BitVec.ofNat 32 j.val then (1 : EReal) else 0) * r2arr m c (ix2 j q))
    + b2arr m c (ix2 (0 : Fin 1) q)
    = (∑ k : Fin 256, xh m c (ix2 n k) * xWl m c (ix2 q (⟨k.val, by omega⟩ : Fin 512))
      + ∑ k : Fin 256, HostPrefix.retK (xrf m c) (xWp m c) (xbp m c) (ix2 (Cert.Spec.rowOf (xbatch m c) n) k)
          * xWl m c (ix2 q (⟨256 + k.val, by omega⟩ : Fin 512)))
    + xbl m c (ix1 q)
  refine congrArg₂ (· + ·) (congrArg₂ (· + ·) (Finset.sum_congr rfl fun k _ => ?_) ?_) (HostPrefix.b2_apply m c q)
  · -- the `h` part: `h` is as launched, the left weight read at an entry
    rw [show harr m c = xh m c from V_main_arg0 m c, HostPrefix.w1_apply m c k q]
  · -- the table part: the clamped batch index is the word of `rowOf`, the one-hot row is hot there, the table entry a sum
    have hbt : btarr m c (ix2 (0 : Fin 1) n) = BitVec.ofNat 32 (Cert.Spec.rowOf (xbatch m c) n).val := by
      rw [HostPrefix.bt_apply m c n]
      exact Cert.Spec.clip_eq_ofNat_row _ (hb n)
    rw [hbt]
    have hhot : ∀ j : Fin 64, (BitVec.ofNat 32 (Cert.Spec.rowOf (xbatch m c) n).val = BitVec.ofNat 32 j.val)
        ↔ Cert.Spec.rowOf (xbatch m c) n = j := fun j =>
      ⟨fun h => Fin.ext (Cert.Spec.ofNat_inj_small (Cert.Spec.rowOf _ n).isLt j.isLt h), fun h => by rw [h]⟩
    simp only [hhot]
    rw [Cert.Spec.sum_onehot]
    exact HostPrefix.r2_apply m c _ q

/-! ## The run, read -/

/-- The kernel's run with the output array at `Spec.G` of the arguments, the arguments unchanged — when no batch index
    is negative. -/
theorem run (hb : ∀ c : Dev nD, Cert.Spec.NonNeg (xbatch m c)) :
    θ_run defs (onTc (τ := τ) (main (F := Ideal))) ⟨m, fun _ => 0, ρ⟩ fun r => ∀ c : Dev nD,
      r.2.mem ((c : Thread nD τ).loc main_v18)
        = Cert.Spec.G (xh m c) (HostPrefix.retK (xrf m c) (xWp m c) (xbp m c)) (Cert.Spec.rowOf (xbatch m c)) (xWl m c) (xbl m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (GK_eq_G m c (hb c))), (h c).2⟩)
    (run_blocks m ρ)

end Cert.KernelIdeal.KVal

end
-- ==== Proof.LibIndex.lean ====
/-
  Reading a row gather and an accumulating row scatter at an index.
  A row gather takes row `idx[t]` of a two-axis operand for every `t`: the start index is read signed and clamped
  into the operand's rows. An accumulating scatter adds update row `t` into operand row `idx[t]`: the start index
  is read signed and NOT clamped, and an update whose row is outside the operand is dropped; so at the ideal
  instance the result at row `n` is the operand's entry plus the sum of the updates over the `t` with `idx[t] = n`.
-/
import Idealize.ShloMosaic.PureOps.Ideal
import Idealize.ShloMosaic.Lib.ValueIdx

noncomputable section

namespace Cert.LibIndex

open Idealize.ShloMosaic Idealize.ShloMosaic.ValueIdx

/-- The dimension numbers of a row gather: operand `[N, C]`, indices `[T, 1]`, result `[T, C]`; result row `t` is the
    operand's row at the start index `idx[t, 0]`, whole (slice sizes `[1, C]`, the row axis collapsed). -/
abbrev rowGatherDims (N T C : Nat)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

section Gather
variable {N T C w : Nat}
  (wf : GatherDims.WF ⟨2, ![N, C]⟩ ⟨2, ![T, 1]⟩ ⟨2, ![T, C]⟩ [1] [0] [] [0] [] 1 ![1, C])

/-- Result position `(t, j)` reads its start index at `(t, 0)`: the result's one batch axis (axis 0) supplies the
    indices' axis 0, and the index vector (axis 1, of extent 1) has only the component `0`. -/
theorem rowGather_siIdx (t : Fin T) (j : Fin C) (c : Fin (rowGatherDims N T C wf).startIndexMap.length) :
    (rowGatherDims N T C wf).siIdx (ix2 t j) c = ix2 t (0 : Fin 1) := by
  funext b
  refine Fin.ext ?_
  match b with
  | ⟨0, _⟩ => rfl
  | ⟨1, _⟩ =>
    have hc : c.val < 1 := c.isLt
    show c.val = 0
    omega

/-- On the row axis the slice starts at the start index read signed and clamped into `[0, N - 1]`: the axis is the one
    the start index map names, and the slice there has one row. -/
theorem rowGather_row_start (idx : IVec ⟨2, ![T, 1]⟩ w) (t : Fin T) (j : Fin C) :
    (rowGatherDims N T C wf).start (ix2 t j) idx 0 = min (idx (ix2 t (0 : Fin 1))).toInt.toNat (N - 1) := by
  unfold GatherDims.start
  rw [dif_pos (show (0 : Fin 2) ∈ (rowGatherDims N T C wf).startIndexMap from List.mem_singleton.mpr rfl),
    rowGather_siIdx]
  rfl

/-- The row axis is collapsed, so the result gives it no offset. -/
theorem rowGather_row_off (t : Fin T) (j : Fin C) : (rowGatherDims N T C wf).offCoord (ix2 t j) 0 = 0 :=
  GatherDims.offCoord_eq_zero _ _ _ (fun h => ((GatherDims.mem_sKept _ _).mp h).1 (List.mem_singleton.mpr rfl))

/-- The column axis is not named by the start index map: its slice starts at `0`. -/
theorem rowGather_col_start (idx : IVec ⟨2, ![T, 1]⟩ w) (t : Fin T) (j : Fin C) :
    (rowGatherDims N T C wf).start (ix2 t j) idx 1 = 0 := by
  unfold GatherDims.start
  rw [dif_neg]
  intro h
  exact absurd (congrArg Fin.val (List.mem_singleton.mp h)) Nat.one_ne_zero

/-- The column axis is the operand's one kept axis, read by the result's one offset axis (axis 1): the offset is `j`. -/
theorem rowGather_col_off (t : Fin T) (j : Fin C) :
    (rowGatherDims N T C wf).offCoord (ix2 t j) 1 = j.val := rfl

end Gather

/-- THE ROW GATHER READ AT `(t, j)`: the operand at row `idx[t, 0]` (read signed, clamped into `[0, N − 1]`), column `j`. -/
theorem rowGather_apply {α : Type} {N T C w : Nat} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (t : Fin T) (j : Fin C) :
    Host.gather (rowGatherDims N T C wf) x idx (ix2 t j)
      = x (ix2 (⟨min (idx (ix2 t (0 : Fin 1))).toInt.toNat (N - 1), by omega⟩ : Fin N) j) := by
  -- the gather reads the operand at the position whose coordinate on each axis is
  -- slice start + batching coordinate + offset; there is no batching axis, so the middle term is 0 on both axes
  have hb : ∀ a, (rowGatherDims N T C wf).batchCoord (ix2 t j) a = 0 :=
    fun a => GatherDims.batchCoord_eq_zero _ _ a List.not_mem_nil
  unfold Host.gather
  congr 1
  funext a
  refine Fin.ext ?_
  match a with
  | ⟨0, _⟩ =>
    -- row axis: clamped start index + 0 + 0
    show (rowGatherDims N T C wf).start (ix2 t j) idx 0 + (rowGatherDims N T C wf).batchCoord (ix2 t j) 0
        + (rowGatherDims N T C wf).offCoord (ix2 t j) 0 = min (idx (ix2 t (0 : Fin 1))).toInt.toNat (N - 1)
    rw [hb, rowGather_row_off, rowGather_row_start]
    rfl
  | ⟨1, _⟩ =>
    -- column axis: 0 + 0 + j
    show (rowGatherDims N T C wf).start (ix2 t j) idx 1 + (rowGatherDims N T C wf).batchCoord (ix2 t j) 1
        + (rowGatherDims N T C wf).offCoord (ix2 t j) 1 = j.val
    rw [hb, rowGather_col_off, rowGather_col_start]
    omega

/-! ## Accumulating scatters -/

/-- An update at `j` lands on operand position `i` exactly when, on every operand axis, its (unclamped, signed) window
    start plus its window coordinate is `i`'s coordinate: the landing position exists when that sum is inside the
    operand on every axis, and then is that sum; and a coordinate of `i` is inside the operand. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hin
    rw [Option.some.injEq]
    constructor
    · intro he a
      have h1 := hin a
      have h2 : (d.start j idx a + (d.window j a : Int)).toNat = (i a).val := by rw [← he]
      omega
    · intro hall
      funext a
      refine Fin.ext ?_
      have h1 := hall a
      show (d.start j idx a + (d.window j a : Int)).toNat = (i a).val
      omega
  · rename_i hout
    constructor
    · intro he
      cases he
    · intro hall
      refine absurd (fun a => ?_) hout
      have h1 := hall a
      have h2 := (i a).isLt
      omega

/-- The dimension numbers of an accumulating row scatter: operand `[N, H]`, indices `[T, 1]`, updates `[T, H]`; update
    row `t` goes to operand row `idx[t, 0]`. -/
abbrev rowScatterDims (N T H : Nat)
    (wf : ScatterDims.WF ⟨2, ![N, H]⟩ ⟨2, ![T, 1]⟩ ⟨2, ![T, H]⟩ [1] [0] [0] 1) :
    ScatterDims ⟨2, ![N, H]⟩ ⟨2, ![T, 1]⟩ ⟨2, ![T, H]⟩ where
  updateWindowDims := [1]
  insertedWindowDims := [0]
  scatterDimsToOperandDims := [0]
  indexVectorDim := 1
  wf := wf

section RowScatter
variable {N T H w : Nat} (wf : ScatterDims.WF ⟨2, ![N, H]⟩ ⟨2, ![T, 1]⟩ ⟨2, ![T, H]⟩ [1] [0] [0] 1)

/-- Update position `(t, k)` reads its start index at `(t, 0)`: the updates' one scatter axis (axis 0) supplies the
    indices' axis 0, and the index vector (axis 1, of extent 1) has only the component `0`. -/
theorem rowScatter_siIdx (t : Fin T) (k : Fin H) (c : Fin (rowScatterDims N T H wf).scatterDimsToOperandDims.length) :
    (rowScatterDims N T H wf).siIdx (ix2 t k) c = ix2 t (0 : Fin 1) := by
  funext b
  refine Fin.ext ?_
  match b with
  | ⟨0, _⟩ => rfl
  | ⟨1, _⟩ =>
    have hc : c.val < 1 := c.isLt
    show c.val = 0
    omega

/-- On the row axis the window starts at the start index, read signed and left as it is. -/
theorem rowScatter_row_start (idx : IVec ⟨2, ![T, 1]⟩ w) (t : Fin T) (k : Fin H) :
    (rowScatterDims N T H wf).start (ix2 t k) idx 0 = (idx (ix2 t (0 : Fin 1))).toInt := by
  unfold ScatterDims.start
  rw [dif_pos (show (0 : Fin 2) ∈ (rowScatterDims N T H wf).scatterDimsToOperandDims from List.mem_singleton.mpr rfl),
    rowScatter_siIdx]

/-- The row axis is the inserted one: the update has no window coordinate there. -/
theorem rowScatter_row_window (t : Fin T) (k : Fin H) : (rowScatterDims N T H wf).window (ix2 t k) 0 = 0 := rfl

/-- The column axis is not a scattered axis: the window starts at `0` there. -/
theorem rowScatter_col_start (idx : IVec ⟨2, ![T, 1]⟩ w) (t : Fin T) (k : Fin H) :
    (rowScatterDims N T H wf).start (ix2 t k) idx 1 = 0 := by
  unfold ScatterDims.start
  rw [dif_neg]
  intro h
  exact absurd (congrArg Fin.val (List.mem_singleton.mp h)) Nat.one_ne_zero

/-- The column axis is the operand's one kept axis, filled by the updates' one window axis (axis 1): the window
    coordinate there is the update's column. -/
theorem rowScatter_col_window (t : Fin T) (k : Fin H) : (rowScatterDims N T H wf).window (ix2 t k) 1 = k.val := rfl

/-- Update `(t, k)` lands on operand position `(n, h)` exactly when its start index, read signed, is `n` and its
    column is `h`. -/
theorem rowScatter_lands_iff (idx : IVec ⟨2, ![T, 1]⟩ w) (t : Fin T) (k : Fin H) (n : Fin N) (h : Fin H) :
    (rowScatterDims N T H wf).resultIdx? (ix2 t k) idx = some (ix2 n h)
      ↔ (idx (ix2 t (0 : Fin 1))).toInt = (n.val : Int) ∧ k = h := by
  rw [resultIdx?_eq_some_iff]
  constructor
  · intro hall
    have h0 := hall 0
    have h1 := hall 1
    rw [rowScatter_row_start, rowScatter_row_window] at h0
    rw [rowScatter_col_start, rowScatter_col_window] at h1
    have h0' : (idx (ix2 t (0 : Fin 1))).toInt + ((0 : Nat) : Int) = (n.val : Int) := h0
    have h1' : (0 : Int) + (k.val : Int) = (h.val : Int) := h1
    exact ⟨by omega, Fin.ext (by omega)⟩
  · rintro ⟨h0, rfl⟩ a
    match a with
    | ⟨0, _⟩ =>
      show (rowScatterDims N T H wf).start (ix2 t k) idx 0 + (((rowScatterDims N T H wf).window (ix2 t k) 0 : Nat) : Int)
        = (n.val : Int)
      rw [rowScatter_row_start, rowScatter_row_window]
      omega
    | ⟨1, _⟩ =>
      show (rowScatterDims N T H wf).start (ix2 t k) idx 1 + (((rowScatterDims N T H wf).window (ix2 t k) 1 : Nat) : Int)
        = (k.val : Int)
      rw [rowScatter_col_start, rowScatter_col_window]
      omega

end RowScatter

/-- THE ACCUMULATING ROW SCATTER READ AT `(n, h)`, at the ideal instance: the operand's entry plus the updates' entries
    `(t, h)` over the rows `t` whose start index, read signed, is `n`. -/
theorem rowScatterAdd_apply {N T H w : Nat}
    (wf : ScatterDims.WF ⟨2, ![N, H]⟩ ⟨2, ![T, 1]⟩ ⟨2, ![T, H]⟩ [1] [0] [0] 1)
    (x : (⟨2, ![N, H]⟩ : Shape).Idx → EReal) (idx : IVec ⟨2, ![T, 1]⟩ w) (upd : (⟨2, ![T, H]⟩ : Shape).Idx → EReal)
    (n : Fin N) (h : Fin H) :
    Ideal.hostScatterAdd (rowScatterDims N T H wf) x idx upd (ix2 n h)
      = x (ix2 n h) + ∑ t ∈ Finset.univ.filter (fun t : Fin T => (idx (ix2 t (0 : Fin 1))).toInt = (n.val : Int)), upd (ix2 t h) := by
  unfold Ideal.hostScatterAdd
  congr 1
  -- the updates landing on (n, h) are the (t, h) with idx[t] = n: re-index their sum by the row t
  refine Finset.sum_nbij' (fun y => (y 0 : Fin T)) (fun t => ix2 t h) ?_ ?_ ?_ ?_ ?_
  · intro y hy
    obtain ⟨t, k, rfl⟩ : ∃ t k, y = ix2 t k := ⟨y 0, y 1, eq_ix2 y⟩
    exact Finset.mem_filter.mpr
      ⟨Finset.mem_univ _, ((rowScatter_lands_iff wf idx t k n h).mp (Finset.mem_filter.mp hy).2).1⟩
  · intro t ht
    exact Finset.mem_filter.mpr
      ⟨Finset.mem_univ _, (rowScatter_lands_iff wf idx t h n h).mpr ⟨(Finset.mem_filter.mp ht).2, rfl⟩⟩
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl
  · intro t _
    rfl
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl

/-- The dimension numbers of an accumulating scatter of scalars: operand `[N]`, indices `[T, 1]`, updates `[T]`. -/
abbrev vecScatterDims (N T : Nat)
    (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section VecScatter
variable {N T w : Nat} (wf : ScatterDims.WF ⟨1, ![N]⟩ ⟨2, ![T, 1]⟩ ⟨1, ![T]⟩ [] [0] [0] 1)

/-- Update position `t` reads its start index at `(t, 0)`: the updates' only axis is a scatter axis and supplies the
    indices' axis 0; the index vector (axis 1, of extent 1) has only the component `0`. -/
theorem vecScatter_siIdx (t : Fin T) (c : Fin (vecScatterDims N T wf).scatterDimsToOperandDims.length) :
    (vecScatterDims N T wf).siIdx (ix1 t) c = ix2 t (0 : Fin 1) := by
  funext b
  refine Fin.ext ?_
  match b with
  | ⟨0, _⟩ => rfl
  | ⟨1, _⟩ =>
    have hc : c.val < 1 := c.isLt
    show c.val = 0
    omega

/-- On the operand's only axis the window starts at the start index, read signed and left as it is. -/
theorem vecScatter_start (idx : IVec ⟨2, ![T, 1]⟩ w) (t : Fin T) :
    (vecScatterDims N T wf).start (ix1 t) idx 0 = (idx (ix2 t (0 : Fin 1))).toInt := by
  unfold ScatterDims.start
  rw [dif_pos (show (0 : Fin 1) ∈ (vecScatterDims N T wf).scatterDimsToOperandDims from List.mem_singleton.mpr rfl),
    vecScatter_siIdx]

/-- That axis is inserted (a scalar update has no window): the window coordinate is `0`. -/
theorem vecScatter_window (t : Fin T) : (vecScatterDims N T wf).window (ix1 t) 0 = 0 := rfl

/-- Update `t` lands on operand position `n` exactly when its start index, read signed, is `n`. -/
theorem vecScatter_lands_iff (idx : IVec ⟨2, ![T, 1]⟩ w) (t : Fin T) (n : Fin N) :
    (vecScatterDims N T wf).resultIdx? (ix1 t) idx = some (ix1 n) ↔ (idx (ix2 t (0 : Fin 1))).toInt = (n.val : Int) := by
  rw [resultIdx?_eq_some_iff]
  constructor
  · intro hall
    have h0 := hall 0
    rw [vecScatter_start, vecScatter_window] at h0
    have h0' : (idx (ix2 t (0 : Fin 1))).toInt + ((0 : Nat) : Int) = (n.val : Int) := h0
    omega
  · intro h0 a
    match a with
    | ⟨0, _⟩ =>
      show (vecScatterDims N T wf).start (ix1 t) idx 0 + (((vecScatterDims N T wf).window (ix1 t) 0 : Nat) : Int)
        = (n.val : Int)
      rw [vecScatter_start, vecScatter_window]
      omega

end VecScatter

/-- THE ACCUMULATING SCATTER OF SCALARS READ AT `n`, at the ideal instance. -/
theorem vecScatterAdd_apply {N T w : Nat}
    (wf : ScatterDims.WF ⟨1, ![N]⟩ ⟨2, ![T, 1]⟩ ⟨1, ![T]⟩ [] [0] [0] 1)
    (x : (⟨1, ![N]⟩ : Shape).Idx → EReal) (idx : IVec ⟨2, ![T, 1]⟩ w) (upd : (⟨1, ![T]⟩ : Shape).Idx → EReal)
    (n : Fin N) :
    Ideal.hostScatterAdd (vecScatterDims N T wf) x idx upd (ix1 n)
      = x (ix1 n) + ∑ t ∈ Finset.univ.filter (fun t : Fin T => (idx (ix2 t (0 : Fin 1))).toInt = (n.val : Int)), upd (ix1 t) := by
  unfold Ideal.hostScatterAdd
  congr 1
  -- an update position is its one coordinate t, and it lands on n exactly when idx[t] = n
  refine Finset.sum_nbij' (fun y => (y 0 : Fin T)) (fun t => ix1 t) ?_ ?_ ?_ ?_ ?_
  · intro y hy
    obtain ⟨t, rfl⟩ : ∃ t, y = ix1 t := ⟨y 0, eq_ix1 y⟩
    exact Finset.mem_filter.mpr ⟨Finset.mem_univ _, (vecScatter_lands_iff wf idx t n).mp (Finset.mem_filter.mp hy).2⟩
  · intro t ht
    exact Finset.mem_filter.mpr ⟨Finset.mem_univ _, (vecScatter_lands_iff wf idx t n).mpr (Finset.mem_filter.mp ht).2⟩
  · intro y _
    exact (eq_ix1 y).symm
  · intro t _
    rfl
  · intro y _
    exact congrArg upd (eq_ix1 y)

end Cert.LibIndex

end
-- ==== Proof.RefValue.lean ====
/-
  The reference's result, entry by entry, is the common function `Spec.G` of the arguments.

  The reference gathers row `batch[n]` of the pooled table for every atom (a negative index first wrapped by the table's
  length: the identity on an index that is not negative; the start index then clamped into the table), joins it to row `n` of
  `h` as one row of length 512, contracts that row against row `c` of `Wl` and adds the bias. The contraction over 512
  positions splits at 256 into the part that reads `h` and the part that reads the gathered row.
-/
import proofs.«412373_j90701119357422_3_alg».proof.Proof.Gen.ReferenceIdeal.Read
import proofs.«412373_j90701119357422_3_alg».proof.Proof.Spec
import proofs.«412373_j90701119357422_3_alg».proof.Proof.LibIndex

noncomputable section

namespace Cert.ReferenceIdeal.RefValue

open Cert.ReferenceIdeal Cert.ReferenceIdeal.Gen Cert.ReferenceIdeal.Read
open Idealize.ShloMosaic Idealize.ShloMosaic.ValueIdx

/-- The start index the gather reads for atom `n` is the atom's batch index: it is not negative, so the wrap leaves it
    alone. -/
theorem start_index (x2 : IVec S262144 32) (hb : Cert.Spec.NonNeg x2) (n : Fin 262144) :
    val_main_v13 (F := Ideal) x2 (ix2 n (0 : Fin 1)) = x2 (ix1 n) := by
  rw [val_main_v13_apply, val_main_v12_apply, val_main_v9_apply, val_main_v11_apply, val_main_v8_apply,
    val_main_v10_apply, val_main_c_apply, val_main_c_1_apply]
  have e : idx_main_v13 (ix2 n (0 : Fin 1)) = ix1 n := funext fun a => Fin.ext (by match a with | ⟨0, _⟩ => rfl)
  rw [e]
  exact Cert.Spec.wrap_of_nonneg _ (hb n)

/-- The gathered array at `(n, k)` is the pooled table at row `rowOf batch n`, column `k`. -/
theorem per_node_apply (x1 : (⟨S64x16x512, .f32⟩ : BufTy).Contents (Elt Ideal)) (x2 : IVec S262144 32)
    (x3 : (⟨S256x512, .f32⟩ : BufTy).Contents (Elt Ideal)) (x4 : (⟨S256, .f32⟩ : BufTy).Contents (Elt Ideal))
    (hb : Cert.Spec.NonNeg x2) (n : Fin 262144) (k : Fin 256) :
    val_main_v14 (F := Ideal) x1 x2 x3 x4 (ix2 n k)
      = val_main_v7 (F := Ideal) x1 x3 x4 (ix2 (Cert.Spec.rowOf x2 n) k) := by
  unfold val_main_v14
  refine (Cert.LibIndex.rowGather_apply (N := 64) (T := 262144) (C := 256) (by decide)
    Facts₀.gather_S64x256_S262144x1_S262144x256_1_0_n_n_0_1_1256_wf _ _ n k).trans ?_
  refine congrArg _ (congrArg (fun r => ix2 r k) (Fin.ext ?_))
  show min (val_main_v13 (F := Ideal) x2 (ix2 n (0 : Fin 1))).toInt.toNat (64 - 1) = min (x2 (ix1 n)).toInt.toNat 63
  rw [start_index x2 hb n]

/-- The reference's result is `Spec.G` of the arguments, the table being the reference's own pooled-and-projected
    array. -/
theorem result_eq (x0 : (⟨S262144x256, .f32⟩ : BufTy).Contents (Elt Ideal)) (x1 : (⟨S64x16x512, .f32⟩ : BufTy).Contents (Elt Ideal))
    (x2 : IVec S262144 32) (x3 : (⟨S256x512, .f32⟩ : BufTy).Contents (Elt Ideal)) (x4 : (⟨S256, .f32⟩ : BufTy).Contents (Elt Ideal))
    (x5 : (⟨S256x512, .f32⟩ : BufTy).Contents (Elt Ideal)) (x6 : (⟨S256, .f32⟩ : BufTy).Contents (Elt Ideal))
    (hb : Cert.Spec.NonNeg x2) :
    val_main_v20 (F := Ideal) x0 x1 x2 x3 x4 x5 x6
      = Cert.Spec.G x0 (val_main_v7 (F := Ideal) x1 x3 x4) (Cert.Spec.rowOf x2) x5 x6 := by
  funext i
  obtain ⟨n, c, rfl⟩ : ∃ (n : Fin 262144) (c : Fin 256), i = ix2 n c := ⟨i 0, i 1, eq_ix2 i⟩
  rw [val_main_v20_apply, val_main_v17_apply, val_main_v19_apply, val_main_v18_apply, Ideal.addf_def, Cert.Spec.sum_split]
  show _ = (∑ k : Fin 256, x0 (ix2 n k) * x5 (ix2 c (⟨k.val, by omega⟩ : Fin 512))
      + ∑ k : Fin 256, val_main_v7 (F := Ideal) x1 x3 x4 (ix2 (Cert.Spec.rowOf x2 n) k) * x5 (ix2 c (⟨256 + k.val, by omega⟩ : Fin 512)))
    + x6 (ix1 c)
  refine congrArg₂ (· + ·) (congrArg₂ (· + ·) (Finset.sum_congr rfl fun k _ => ?_) (Finset.sum_congr rfl fun k _ => ?_)) ?_
  · -- a position below 256 of the joined row is `h`'s
    rw [val_main_v16_apply]
    refine congrArg₂ (· * ·) ?_ (congrArg x5 (funext fun a => Fin.ext (by match a with | ⟨0, _⟩ => rfl | ⟨1, _⟩ => rfl)))
    unfold val_main_v15
    refine concatenate_pair_apply_left (t := S262144x512) 1 x0 _ _ _ (by rfl) (ix2 n k) ?_
    intro b
    match b with
    | ⟨0, _⟩ => rfl
    | ⟨1, _⟩ => rfl
  · -- a position from 256 on is the gathered row's, 256 less
    rw [val_main_v16_apply]
    refine congrArg₂ (· * ·) ?_ (congrArg x5 (funext fun a => Fin.ext (by match a with | ⟨0, _⟩ => rfl | ⟨1, _⟩ => rfl)))
    unfold val_main_v15
    refine (concatenate_pair_apply_right (t := S262144x512) 1 x0 _ _ _ (by rfl) (by rfl) (ix2 n k) ?_ ?_).trans (per_node_apply x1 x2 x3 x4 hb n k)
    · intro b hb'
      match b with
      | ⟨0, _⟩ => rfl
      | ⟨1, _⟩ => exact absurd rfl hb'
    · show k.val + 256 = 256 + k.val
      omega
  · exact congrArg x6 (funext fun a => Fin.ext (by match a with | ⟨0, _⟩ => rfl))

end Cert.ReferenceIdeal.RefValue

end
-- ==== Proof.PreRange.lean ====
/-
  What the precondition says of the batch indices: none, read signed, is negative.

  The precondition is a conjunction (a chain of one-bit `and`s) of `all`-reductions; its last conjunct is
  `all (batch ≥ 0)`, a signed comparison against a broadcast zero. A conjunction that is 1 has both conjuncts 1, an `all`
  that is 1 has a 1 at every position, and a signed comparison that is 1 orders the two signed readings.
-/
import proofs.«412373_j90701119357422_3_alg».proof.Pre_finite_inputs
import proofs.«412373_j90701119357422_3_alg».proof.Proof.Gen.Pre_finite_inputs
import proofs.«412373_j90701119357422_3_alg».proof.Proof.Spec
import Idealize.ShloMosaic.Lib.ReduceAll

noncomputable section

namespace Cert.Pre_finite_inputs.Range

open Cert.Pre_finite_inputs Cert.Pre_finite_inputs.Gen Idealize.ShloMosaic Idealize.ShloMosaic.ValueIdx

/-- A rank-0 array has one position. -/
instance : Subsingleton S_.Idx := ⟨fun a b => funext fun d => d.elim0⟩

/-- Under the precondition no batch index is negative. -/
theorem inRange_of_pre {F : FTy → Type} [FloatOps F] (a0 : FVec F S262144x256 .f32) (a1 : FVec F S64x16x512 .f32)
    (a2 : IVec S262144 32) (a3 : FVec F S256x512 .f32) (a4 : FVec F S256 .f32) (a5 : FVec F S256x512 .f32)
    (a6 : FVec F S256 .f32) (h : fn (F := F) a0 a1 a2 a3 a4 a5 a6 = fun _ => 1#1) : Cert.Spec.NonNeg a2 := by
  have h0 := congrFun h ix0
  dsimp only [fn, fn_part1] at h0
  have h0' : IntOp.andi _ _ = 1#1 := h0
  obtain ⟨-, h31⟩ := IntOp.andi_eq_one.1 h0'
  intro n
  have hge : IntOp.cmpi .sge (a2 (ix1 n)) 0#32 = 1#1 := Host.reduce_andi_all _ _ _ _ _ h31 (ix1 n)
  rw [IntOp.cmpi_sge] at hge
  have e0 : (0#32 : BitVec 32).toInt = 0 := by decide
  rw [e0] at hge
  exact hge

end Cert.Pre_finite_inputs.Range

end
-- ==== Proof.lean ====
/-
  The certificate: a per-batch pooled feature, gathered per atom, joined to the atom's features and put through one linear
  layer (the reference), against a kernel that never forms the gathered rows: it folds the pooled table through the right
  half of the layer's weight on the host, and per block of 4096 atoms adds `h · Wl[:, :256]ᵀ`, a one-hot selection of the
  folded table's row, and the bias.

  Both programs compute the pooled table `ret` by the same operations. For atom `n` with batch index `b ≥ 0` (both programs
  clamp it to at most 63) and output column `c`, the reference's entry is `∑ k < 512, [h[n, :], ret[b, :]][k] · Wl[c, k] + bl[c]` and the kernel's is
  `(∑ k < 256, h[n, k] · Wl[c, k] + ∑ j < 64, [b = j] · (∑ k < 256, ret[j, k] · Wl[c, 256 + k])) + bl[c]`: the sum over 512
  splits at 256, and a sum weighted by a one-hot row is the summand at the hot position. Both hold for all extended reals,
  so finiteness of the float inputs is not used. That no batch index is negative is: a batch index −1 reads table row 63
  in the reference (negative indices wrap) and row 0 in the kernel (it clamps).

  Modules: `Spec` (the common function and the pure facts), `RefValue` (the reference is that function), `Payload` (the
  kernel body's stored value at an entry), `HostPrefix` (the arrays the kernel's host operations hand the region),
  `KernelValue` (the kernel's output array is that function), `PreRange` (the precondition gives the indices' sign),
  `LibIndex` (a row gather read at an entry).
-/
import proofs.«412373_j90701119357422_3_alg».proof.Defs
import proofs.«412373_j90701119357422_3_alg».proof.Proof.Gen.Kernel
import proofs.«412373_j90701119357422_3_alg».proof.Proof.Gen.Kernel.Skeleton
import proofs.«412373_j90701119357422_3_alg».proof.Proof.Gen.Kernel.Launch
import proofs.«412373_j90701119357422_3_alg».proof.Proof.Gen.Kernel.Points
import proofs.«412373_j90701119357422_3_alg».proof.Proof.Gen.Kernel.Frame
import proofs.«412373_j90701119357422_3_alg».proof.Proof.Gen.KernelIdeal
import proofs.«412373_j90701119357422_3_alg».proof.Proof.Gen.KernelIdeal.Skeleton
import proofs.«412373_j90701119357422_3_alg».proof.Proof.Gen.KernelIdeal.Launch
import proofs.«412373_j90701119357422_3_alg».proof.Proof.Gen.KernelIdeal.Points
import proofs.«412373_j90701119357422_3_alg».proof.Proof.Gen.KernelIdeal.Frame
import proofs.«412373_j90701119357422_3_alg».proof.Proof.Gen.ReferenceIdeal
import proofs.«412373_j90701119357422_3_alg».proof.Proof.Gen.Pre_finite_inputs
import proofs.«412373_j90701119357422_3_alg».proof.Proof.Gen.KernelIdeal.Value
import proofs.«412373_j90701119357422_3_alg».proof.Proof.Gen.ReferenceIdeal.Run
import proofs.«412373_j90701119357422_3_alg».proof.Proof.Gen.ReferenceIdeal.Read
import proofs.«412373_j90701119357422_3_alg».proof.Proof.KernelValue
import proofs.«412373_j90701119357422_3_alg».proof.Proof.RefValue
import proofs.«412373_j90701119357422_3_alg».proof.Proof.PreRange
import Idealize.ShloMosaic.Adequacy
import Idealize.ShloMosaic.Init

noncomputable section

namespace Cert.Proof

open Idealize.ShloMosaic Idealize.ShloMosaic.TcCoe Idealize.SL.Sem

/-- The kernel's run terminates and leaves its arguments as they were, at the word-level instance. -/
theorem frame_k : Cert.frame_Kernel := fun m ρ _ => Cert.Kernel.Gen.frame m ρ

/-- The same at the ideal instance. -/
theorem frame_ki : Cert.frame_KernelIdeal := fun m ρ _ => Cert.KernelIdeal.Gen.frame m ρ

/-- The reference's run terminates and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two programs compute the pooled-and-projected table by the same operations of `ret_feat`, `Wp` and `bp` (at the
    ideal instance a requested precision changes nothing). -/
theorem ret_eq (x1 : FVec Ideal Cert.KernelIdeal.S64x16x512 .f32) (x3 : FVec Ideal Cert.KernelIdeal.S256x512 .f32)
    (x4 : FVec Ideal Cert.KernelIdeal.S256 .f32) :
    Cert.KernelIdeal.HostPrefix.retK x1 x3 x4 = Cert.ReferenceIdeal.Read.val_main_v7 (F := Ideal) x1 x3 x4 := rfl

/-- From memories that agree on the arguments, under the precondition, both programs end with the output at the common
    function of the arguments. -/
theorem algebraic : Cert.algebraic_KernelIdeal_ReferenceIdeal := by
  intro m ρ m' ρ' hpre hagree
  have hb : ∀ c : Dev Cert.KernelIdeal.nD,
      Cert.Spec.NonNeg (m ((c.tc : Thread Cert.KernelIdeal.nD Cert.KernelIdeal.τ).loc Cert.KernelIdeal.main_arg2)) :=
    fun c => Cert.Pre_finite_inputs.Range.inRange_of_pre _ _ _ _ _ _ _ (hpre c)
  refine ⟨_, Cert.KernelIdeal.KVal.run m ρ hb, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v20_eq,
    Cert.ReferenceIdeal.RefValue.result_eq _ _ _ _ _ _ _ (by rw [a2]; exact hb c),
    a0, a1, a2, a3, a4, a5, a6, ret_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
